-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x40 : Shape := ⟨2, ![50000, 40]⟩
abbrev S10000x40 : Shape := ⟨2, ![10000, 40]⟩
abbrev S850000x40 : Shape := ⟨2, ![850000, 40]⟩
abbrev S1x40 : Shape := ⟨2, ![1, 40]⟩

abbrev nBuf : Space → Nat
  | .hbm => 98
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x128, .f32⟩
  | .hbm, ⟨72, _⟩ => ⟨S850000x1, .f32⟩
  | .hbm, ⟨73, _⟩ => ⟨S850000x128, .f32⟩
  | .hbm, ⟨74, _⟩ => ⟨S850000x128, .f32⟩
  | .hbm, ⟨75, _⟩ => ⟨S_, .f32⟩
  | .hbm, ⟨76, _⟩ => ⟨S50000x128, .f32⟩
  | .hbm, ⟨77, _⟩ => ⟨S850000x1, .i32⟩
  | .hbm, ⟨78, _⟩ => ⟨S50000x128, .f32⟩
  | .hbm, ⟨79, _⟩ => ⟨S50000x128, .f32⟩
  | .hbm, ⟨80, _⟩ => ⟨S50000x40, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x40, .f32⟩
  | .hbm, ⟨90, _⟩ => ⟨S850000x1, .f32⟩
  | .hbm, ⟨91, _⟩ => ⟨S850000x40, .f32⟩
  | .hbm, ⟨92, _⟩ => ⟨S850000x40, .f32⟩
  | .hbm, ⟨93, _⟩ => ⟨S_, .f32⟩
  | .hbm, ⟨94, _⟩ => ⟨S50000x40, .f32⟩
  | .hbm, ⟨95, _⟩ => ⟨S850000x1, .i32⟩
  | .hbm, ⟨96, _⟩ => ⟨S50000x40, .f32⟩
  | .hbm, ⟨97, _⟩ => ⟨S50000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x40, .f32⟩
  | .local _ .vmem, ⟨23, _⟩ => ⟨S10000x40, .f32⟩
  | .local _ .vmem, ⟨24, _⟩ => ⟨S10000x40, .f32⟩
  | .local _ .vmem, ⟨25, _⟩ => ⟨S10000x40, .f32⟩
  | .local _ .vmem, ⟨26, _⟩ => ⟨S10000x40, .f32⟩
  | .local _ .vmem, ⟨27, _⟩ => ⟨S40, .f32⟩
  | .local _ .vmem, ⟨28, _⟩ => ⟨S10000x40, .f32⟩
  | .local _ .vmem, ⟨29, _⟩ => ⟨S10000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S10000x40_S10000x40 : S10000x40.ShapeCasts S10000x40
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x40_S10000x40_1_0_0_1_n_n_wf : DotDims.WF S10000x128 S128x40 S10000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S50000x40.size a
  hwx4_2 : ∀ i : grid4.Coords, EltTy.bits .f32 = 32 ∨ (Rect.block (s := S50000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S50000x40.size a
  hwx5_0 : ∀ i : grid5.Coords, EltTy.bits .f32 = 32 ∨ (Rect.block (s := S50000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S40.size a ≤ S40.size a
  hwx5_1 : ∀ i : grid5.Coords, EltTy.bits .f32 = 32 ∨ (Rect.block (s := S40) S40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S50000x40.size a
  hwx5_2 : ∀ i : grid5.Coords, EltTy.bits .f32 = 32 ∨ (Rect.block (s := S50000x40) S10000x40.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x40, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x40, .f32⟩
  | .hbm, ⟨100, _⟩ => ⟨S850000x1, .f32⟩
  | .hbm, ⟨101, _⟩ => ⟨S850000x40, .f32⟩
  | .hbm, ⟨102, _⟩ => ⟨S850000x40, .f32⟩
  | .hbm, ⟨103, _⟩ => ⟨S_, .f32⟩
  | .hbm, ⟨104, _⟩ => ⟨S50000x40, .f32⟩
  | .hbm, ⟨105, _⟩ => ⟨S850000x1, .i32⟩
  | .hbm, ⟨106, _⟩ => ⟨S50000x40, .f32⟩
  | .hbm, ⟨107, _⟩ => ⟨S1x40, .f32⟩
  | .hbm, ⟨108, _⟩ => ⟨S50000x40, .f32⟩
  | .hbm, ⟨109, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.HostChain.lean ====
/- The host computations the kernel's program and the reference share, as functions of what they read.

   From the edge list: the source and the target node of every message (the 800000 edges, then one self loop per node),
   and the symmetric normalisation weight of every message, the inverse square roots of the target-degree of its two
   end nodes multiplied (the degree counts the self loop and is at least one). From a projected feature array: one
   round of message passing, every message being its source node's row times its weight, summed into its target
   node's row. -/
import proofs.«142947_j38963943309622_1_alg».proof.Proof.Gen.KernelIdeal

noncomputable section

namespace Cert.KernelIdeal.HostChain

open Cert.KernelIdeal Cert.KernelIdeal.Gen Idealize.ShloMosaic
open Cert.KernelIdeal.Facts

variable {F : FTy → Type} [FloatOps F]

/-- The source node of every message: the edge list's first row, then every node once. -/
def sources (e : (⟨S2x800000, .i32⟩ : BufTy).Contents (Elt F)) : (⟨S850000, .i32⟩ : BufTy).Contents (Elt F) :=
  concatenate S850000 0 [⟨S800000, shapeCast _ (extractStridedSlice S1x800000 ![0, 0] e slices_S2x800000_S1x800000_0_0) shapeCasts_S1x800000_S800000⟩,
    ⟨S50000, iotaInDim S50000 32 0⟩] concatenates_S800000_S50000_S850000_d0

/-- The target node of every message: the edge list's second row, then every node once. -/
def targets (e : (⟨S2x800000, .i32⟩ : BufTy).Contents (Elt F)) : (⟨S850000, .i32⟩ : BufTy).Contents (Elt F) :=
  concatenate S850000 0 [⟨S800000, shapeCast _ (extractStridedSlice S1x800000 ![1, 0] e slices_S2x800000_S1x800000_1_0) shapeCasts_S1x800000_S800000⟩,
    ⟨S50000, iotaInDim S50000 32 0⟩] concatenates_S800000_S50000_S850000_d0

/-- A negative node number counts from the end: the node count is added to it. -/
def wrapped (s : (⟨S850000, .i32⟩ : BufTy).Contents (Elt F)) : (⟨S850000, .i32⟩ : BufTy).Contents (Elt F) :=
  select (cmpi CmpIPredicate.slt s (broadcastInDim S850000 ![] bcast_S_S850000 (constantI S_ 32 0#32)))
    (addi s (broadcastInDim S850000 ![] bcast_S_S850000 (constantI S_ 32 50000#32))) s

/-- The inverse square root of every node's degree: the messages arriving at it counted, at least one. -/
def invSqrtDegree (e : (⟨S2x800000, .i32⟩ : BufTy).Contents (Elt F)) : (⟨S50000, .f32⟩ : BufTy).Contents (Elt F) :=
  Host.rsqrt (maximumf
    (Host.scatterAdd scatter_S50000_S850000x1_S850000_n_0_0_1
      (broadcastInDim S50000 ![] bcast_S_S50000 (constant S_ .f32 0x00000000#32))
      (broadcastInDim S850000x1 ![0] bcast_S850000_S850000x1_0 (targets e))
      (broadcastInDim S850000 ![] bcast_S_S850000 (constant S_ .f32 0x3F800000#32)))
    (broadcastInDim S50000 ![] bcast_S_S50000 (constant S_ .f32 0x3F800000#32)))

/-- The weight of every message: the two end nodes' inverse square root degrees multiplied. -/
def weights (e : (⟨S2x800000, .i32⟩ : BufTy).Contents (Elt F)) : (⟨S850000, .f32⟩ : BufTy).Contents (Elt F) :=
  mulf
    (Host.gather gather_S50000_S850000x1_S850000_n_0_n_n_0_1_1 (invSqrtDegree e)
      (broadcastInDim S850000x1 ![0] bcast_S850000_S850000x1_0 (wrapped (sources e))))
    (Host.gather gather_S50000_S850000x1_S850000_n_0_n_n_0_1_1 (invSqrtDegree e)
      (broadcastInDim S850000x1 ![0] bcast_S850000_S850000x1_0 (wrapped (targets e))))

/-- One round of message passing over 128 features: every message is its source node's row times its weight, and the
    messages are summed into their target nodes' rows. -/
def passMessages128 (lin : (⟨S50000x128, .f32⟩ : BufTy).Contents (Elt F))
    (src dst : (⟨S850000, .i32⟩ : BufTy).Contents (Elt F)) (wt : (⟨S850000, .f32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf
      (Host.gather gather_S50000x128_S850000x1_S850000x128_1_0_n_n_0_1_1128 lin
        (broadcastInDim S850000x1 ![0] bcast_S850000_S850000x1_0 (wrapped src)))
      (broadcastInDim S850000x128 ![0, 1] bcast_S850000x1_S850000x128_0_1
        (broadcastInDim S850000x1 ![0] bcast_S850000_S850000x1_0 wt)))

/-- The same round over 40 features. -/
def passMessages40 (lin : (⟨S50000x40, .f32⟩ : BufTy).Contents (Elt F))
    (src dst : (⟨S850000, .i32⟩ : BufTy).Contents (Elt F)) (wt : (⟨S850000, .f32⟩ : BufTy).Contents (Elt F)) :
    (⟨S50000x40, .f32⟩ : BufTy).Contents (Elt F) :=
  Host.scatterAdd scatter_S50000x40_S850000x1_S850000x40_1_0_0_1
    (broadcastInDim S50000x40 ![] bcast_S_S50000x40 (constant S_ .f32 0x00000000#32))
    (broadcastInDim S850000x1 ![0] bcast_S850000_S850000x1_0 dst)
    (mulf
      (Host.gather gather_S50000x40_S850000x1_S850000x40_1_0_n_n_0_1_140 lin
        (broadcastInDim S850000x1 ![0] bcast_S850000_S850000x1_0 (wrapped src)))
      (broadcastInDim S850000x40 ![0, 1] bcast_S850000x1_S850000x40_0_1
        (broadcastInDim S850000x1 ![0] bcast_S850000_S850000x1_0 wt)))

end Cert.KernelIdeal.HostChain

end
-- ==== Proof.FoldReads.lean ====
/- The host stretches of the kernel's program, read back.

   Between the regions the program runs the host computations it shares with the reference. Reading a buffer after a
   stretch gives the stretch's operations composed over the contents before it: the message sources, targets and
   weights from the edge list after the first stretch, and after each later stretch one round of message passing over
   the projection the region before it left. A buffer no operation of a stretch writes is unchanged by it. -/
import proofs.«142947_j38963943309622_1_alg».proof.Proof.Gen.KernelIdeal.Frame
import proofs.«142947_j38963943309622_1_alg».proof.Proof.HostChain
import Idealize.ShloMosaic.Lib.StableHlo.Run

set_option maxRecDepth 16384

noncomputable section

namespace Cert.KernelIdeal.FoldReads

open Cert.KernelIdeal Cert.KernelIdeal.Gen Idealize.ShloMosaic Idealize.ShloMosaic.TcCoe Idealize.SL.Sem
open Idealize.ShloMosaic.StableHlo Cert.KernelIdeal.HostChain

variable {F : FTy → Type} [FloatOps F]
variable (m : (ℓ : Loc nD τ sig) → Buf (Elt F) ℓ) (ρ : Dev nD → PrngReg) (c : Dev nD)

/-- Reading a buffer after a stretch: the stretch's operations composed over the contents before it (the goal's left
    side is first shown as the fold of the stretch's operations, then read back one operation at a time). -/
local macro "read_after " ops:ident : tactic =>
  `(tactic| (show StableHlo.after $ops _ _ = _; after_results <;> rfl))

/-! ## The first stretch: everything read from the edge list -/

set_option maxHeartbeats 8000000 in
/-- The message sources. -/
theorem sources_read : W1 m ρ c (Proc.devRef .tc main_v5) = sources (m ((c : Thread nD τ).loc main_arg1)) := by
  read_after hostOps0

set_option maxHeartbeats 8000000 in
/-- The message targets. -/
theorem targets_read : W1 m ρ c (Proc.devRef .tc main_v6) = targets (m ((c : Thread nD τ).loc main_arg1)) := by
  read_after hostOps0

set_option maxHeartbeats 40000000 in
/-- The message weights. -/
theorem weights_read : W1 m ρ c (Proc.devRef .tc main_v28) = weights (m ((c : Thread nD τ).loc main_arg1)) := by
  read_after hostOps0

/-! ## The later stretches: one round of message passing each -/

set_option maxHeartbeats 8000000 in
theorem round1_read : W3 m ρ c (Proc.devRef .tc main_v42)
    = passMessages128 (W2 m ρ c (Proc.devRef .tc main_v29)) (W2 m ρ c (Proc.devRef .tc main_v5))
        (W2 m ρ c (Proc.devRef .tc main_v6)) (W2 m ρ c (Proc.devRef .tc main_v28)) := by
  read_after hostOps1

set_option maxHeartbeats 8000000 in
theorem round2_read : W6 m ρ c (Proc.devRef .tc main_v57)
    = passMessages128 (W5 m ρ c (Proc.devRef .tc main_v44)) (W5 m ρ c (Proc.devRef .tc main_v5))
        (W5 m ρ c (Proc.devRef .tc main_v6)) (W5 m ρ c (Proc.devRef .tc main_v28)) := by
  read_after hostOps3

set_option maxHeartbeats 8000000 in
theorem round3_read : W9 m ρ c (Proc.devRef .tc main_v72)
    = passMessages40 (W8 m ρ c (Proc.devRef .tc main_v59)) (W8 m ρ c (Proc.devRef .tc main_v5))
        (W8 m ρ c (Proc.devRef .tc main_v6)) (W8 m ρ c (Proc.devRef .tc main_v28)) := by
  read_after hostOps5

/-! ## What a stretch leaves untouched

The first stretch writes none of the arguments. -/

theorem first_keeps_arg0 : W1 m ρ c (Proc.devRef .tc main_arg0) = W0 m ρ c (Proc.devRef .tc main_arg0) := by
  read_after hostOps0
theorem first_keeps_arg2 : W1 m ρ c (Proc.devRef .tc main_arg2) = W0 m ρ c (Proc.devRef .tc main_arg2) := by
  read_after hostOps0
theorem first_keeps_arg3 : W1 m ρ c (Proc.devRef .tc main_arg3) = W0 m ρ c (Proc.devRef .tc main_arg3) := by
  read_after hostOps0
theorem first_keeps_arg4 : W1 m ρ c (Proc.devRef .tc main_arg4) = W0 m ρ c (Proc.devRef .tc main_arg4) := by
  read_after hostOps0

/-! The second stretch writes neither what the first computed from the edge list nor an argument. -/

theorem second_keeps_sources : W3 m ρ c (Proc.devRef .tc main_v5) = W2 m ρ c (Proc.devRef .tc main_v5) := by
  read_after hostOps1
theorem second_keeps_targets : W3 m ρ c (Proc.devRef .tc main_v6) = W2 m ρ c (Proc.devRef .tc main_v6) := by
  read_after hostOps1
theorem second_keeps_weights : W3 m ρ c (Proc.devRef .tc main_v28) = W2 m ρ c (Proc.devRef .tc main_v28) := by
  read_after hostOps1
theorem second_keeps_arg3 : W3 m ρ c (Proc.devRef .tc main_arg3) = W2 m ρ c (Proc.devRef .tc main_arg3) := by
  read_after hostOps1
theorem second_keeps_arg4 : W3 m ρ c (Proc.devRef .tc main_arg4) = W2 m ρ c (Proc.devRef .tc main_arg4) := by
  read_after hostOps1

/-! Nor does the third. -/

theorem third_keeps_sources : W6 m ρ c (Proc.devRef .tc main_v5) = W5 m ρ c (Proc.devRef .tc main_v5) := by
  read_after hostOps3
theorem third_keeps_targets : W6 m ρ c (Proc.devRef .tc main_v6) = W5 m ρ c (Proc.devRef .tc main_v6) := by
  read_after hostOps3
theorem third_keeps_weights : W6 m ρ c (Proc.devRef .tc main_v28) = W5 m ρ c (Proc.devRef .tc main_v28) := by
  read_after hostOps3

/-! The fourth writes no argument. -/

theorem fourth_keeps_arg5 : W9 m ρ c (Proc.devRef .tc main_arg5) = W8 m ρ c (Proc.devRef .tc main_arg5) := by
  read_after hostOps5
theorem fourth_keeps_arg6 : W9 m ρ c (Proc.devRef .tc main_arg6) = W8 m ρ c (Proc.devRef .tc main_arg6) := by
  read_after hostOps5

end Cert.KernelIdeal.FoldReads

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Products.lean ====
/- The dense pieces of a layer as functions of the result's index: rows times columns, and the bias row added to
   every row (with or without the maximum with zero).

   Entry (a, b) of the product of an M×K array with a K×N array is the sum over k of X (a, k) · W (k, b). Over the
   extended reals the host's matrix product with the second axis of the left operand contracted against the first
   axis of the right operand is that function of its two operands. -/
import proofs.«142947_j38963943309622_1_alg».proof.Proof.LibDotPlain

noncomputable section

namespace Cert.Products

open Idealize.ShloMosaic Idealize.ShloMosaic.ValueIdx
open scoped BigOperators

/-- Entry (a, b) of the product: the sum over k of X (a, k) · W (k, b). -/
def rowsCols {M K N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 (n1 := N) k (i 1))

/-- The product at the index with coordinates a and b. -/
theorem rowsCols_apply {M K N : Nat} (X : (⟨2, ![M, K]⟩ : Shape).Idx → EReal) (W : (⟨2, ![K, N]⟩ : Shape).Idx → EReal)
    (a : Fin M) (b : Fin N) : rowsCols X W (ix2 a b) = ∑ k : Fin K, X (ix2 a k) * W (ix2 k b) := rfl

/-- The host's product, second axis against first axis and no batch axis, is that function of its operands. -/
theorem dotGeneral_eq_rowsCols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) :
    FloatOps.dotGeneral d prec sched l r = rowsCols l r := by
  funext i
  obtain ⟨a, b, rfl⟩ : ∃ (a : Fin M) (b : Fin N), i = ix2 a b := ⟨i 0, i 1, eq_ix2 i⟩
  exact Cert.DotPlain.dotGeneral_rows_cols d hlb hrb hlc hrc hln hrn prec sched l r a b

/-- The zero the activation compares with. -/
abbrev zeroF : EReal := Ideal.ofBits .f32 0x00000000#32

/-- The bias row added to every row, then the maximum with zero: entry (a, b) is max (A (a, b) + bias b) 0. -/
def biasRelu {M N : Nat} (A : (⟨2, ![M, N]⟩ : Shape).Idx → EReal) (bias : (⟨1, ![N]⟩ : Shape).Idx → EReal) :
    (⟨2, ![M, N]⟩ : Shape).Idx → EReal :=
  fun i => max (A i + bias (ix1 (n := N) (i 1))) zeroF

/-- The bias row added to every row: entry (a, b) is A (a, b) + bias b. -/
def biasAdd {M N : Nat} (A : (⟨2, ![M, N]⟩ : Shape).Idx → EReal) (bias : (⟨1, ![N]⟩ : Shape).Idx → EReal) :
    (⟨2, ![M, N]⟩ : Shape).Idx → EReal :=
  fun i => A i + bias (ix1 (n := N) (i 1))

end Cert.Products

end
-- ==== Proof.PointValues.lean ====
/- What each kernel body stores, read at one index of its block.

   The three projection bodies store the product of the row block with the whole weight matrix: narrowing both to
   bf16 changes nothing over the extended reals, and the product into a zero accumulator is the plain sum over the
   contracted coordinate. The bias bodies store the block plus the bias row, the first two followed by the maximum
   with zero. -/
import proofs.«142947_j38963943309622_1_alg».proof.Proof.Gen.KernelIdeal.Skeleton
import proofs.«142947_j38963943309622_1_alg».proof.Proof.LibDotPlain
import proofs.«142947_j38963943309622_1_alg».proof.Proof.Products
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PointValues

open Cert.KernelIdeal Cert.KernelIdeal.Gen Idealize.ShloMosaic Idealize.ShloMosaic.ValueIdx Cert.Products
open scoped BigOperators

/-- First projection: entry (p, q) of the stored block is the sum over k of x (p, k) · w (k, q). -/
theorem proj1_apply (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  exact Cert.DotPlain.matmul_zero_rows_cols dot_S10000x128_S128x128_S10000x128_1_0_0_1_n_n rfl rfl rfl rfl rfl rfl none _ _ p q

/-- Second projection: the same product (the block is first re-read at its own shape). -/
theorem proj2_apply (x : Vec Ideal S10000x128 .f32) (w : Vec Ideal S128x128 .f32) (p : Fin 10000) (q : Fin 128) :
    k2_pay1 (F := Ideal) x w (ix2 p q) = ∑ k : Fin 128, x (ix2 p k) * w (ix2 k q) := by
  unfold k2_pay1
  rw [shapeCast_self]
  exact Cert.DotPlain.matmul_zero_rows_cols dot_S10000x128_S128x128_S10000x128_1_0_0_1_n_n rfl rfl rfl rfl rfl rfl none _ _ p q

/-- Third projection: 128 features to 40 classes. -/
theorem proj3_apply (x : Vec Ideal S10000x128 .f32) (w : Vec Ideal S128x40 .f32) (p : Fin 10000) (q : Fin 40) :
    k4_pay1 (F := Ideal) x w (ix2 p q) = ∑ k : Fin 128, x (ix2 p k) * w (ix2 k q) := by
  unfold k4_pay1
  rw [shapeCast_self]
  exact Cert.DotPlain.matmul_zero_rows_cols dot_S10000x128_S128x40_S10000x40_1_0_0_1_n_n rfl rfl rfl rfl rfl rfl none _ _ p q

/-- First bias and activation: entry (p, q) is the maximum of x (p, q) + b q and zero. -/
theorem act1_apply (x : Vec Ideal S10000x128 .f32) (b : Vec Ideal S128 .f32) (p : Fin 10000) (q : Fin 128) :
    k1_pay1 (F := Ideal) x b (ix2 p q) = max (x (ix2 p q) + b (ix1 q)) zeroF := by
  unfold k1_pay1
  rw [shapeCast_self]
  show max (x (ix2 p q) + broadcastTo S10000x128 (shapeCast S1x128 b shapeCasts_S128_S1x128) broadcasts_S1x128_S10000x128 (ix2 p q)) _ = _
  rw [broadcastTo_1b_ab_apply, shapeCast_a_1a_apply]
  rfl

/-- Second bias and activation. -/
theorem act2_apply (x : Vec Ideal S10000x128 .f32) (b : Vec Ideal S128 .f32) (p : Fin 10000) (q : Fin 128) :
    k3_pay1 (F := Ideal) x b (ix2 p q) = max (x (ix2 p q) + b (ix1 q)) zeroF := by
  unfold k3_pay1
  rw [shapeCast_self]
  show max (x (ix2 p q) + broadcastTo S10000x128 (shapeCast S1x128 b shapeCasts_S128_S1x128) broadcasts_S1x128_S10000x128 (ix2 p q)) _ = _
  rw [broadcastTo_1b_ab_apply, shapeCast_a_1a_apply]
  rfl

/-- Last bias, no activation: entry (p, q) is x (p, q) + b q. -/
theorem bias3_apply (x : Vec Ideal S10000x40 .f32) (b : Vec Ideal S40 .f32) (p : Fin 10000) (q : Fin 40) :
    k5_pay1 (F := Ideal) x b (ix2 p q) = x (ix2 p q) + b (ix1 q) := by
  unfold k5_pay1
  rw [shapeCast_self]
  show x (ix2 p q) + broadcastTo S10000x40 (shapeCast S1x40 b shapeCasts_S40_S1x40) broadcasts_S1x40_S10000x40 (ix2 p q) = _
  rw [broadcastTo_1b_ab_apply, shapeCast_a_1a_apply]

end Cert.KernelIdeal.PointValues

end
-- ==== Proof.Region0.lean ====
/- The first projection region: after its five row blocks are written back, the result array holds the product
   of the node features with the first weight matrix.

   Grid point t stages rows 10000·t … 10000·t + 9999 of the features and the whole weight matrix, and writes rows
   10000·t … of the result. Entry (p, q) of what it writes is the sum over k of x (10000·t + p, k) · w (k, q), which is
   entry (10000·t + p, q) of the whole product; the five blocks cover all 50000 rows. -/
import proofs.«142947_j38963943309622_1_alg».proof.Proof.Gen.KernelIdeal.Frame
import proofs.«142947_j38963943309622_1_alg».proof.Proof.PointValues
import proofs.«142947_j38963943309622_1_alg».proof.Proof.Products

set_option maxRecDepth 16384

noncomputable section

namespace Cert.KernelIdeal.Region0

open Cert.KernelIdeal Cert.KernelIdeal.Gen Idealize.ShloMosaic Idealize.ShloMosaic.ValueIdx Idealize.ShloMosaic.TcCoe
open Idealize.SL.Sem Cert.Products
open Idealize.ShloMosaic.Pipeline (Dat Cfg Window)
open scoped BigOperators

variable (V : (c : Dev nD) → (b : Ref sig .tc) → Buf (Elt Ideal) ((c : Thread nD τ).loc b))

/-- The node features and the weight matrix as the region finds them, at their literal types. -/
abbrev feats (c : Dev nD) : S50000x128.Idx → EReal := V c main_arg0
abbrev weights (c : Dev nD) : S128x128.Idx → EReal := V c main_arg2

theorem origin : (![0, 0] : Fin 2 → Nat) = fun _ => 0 := funext fun a => by fin_cases a <;> rfl

/-- The block index maps over the grid: the feature block and the result block move together along the rows, the
    weight matrix is one block, and the result's row block index is the grid point. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is its block of the whole product. -/
theorem written_block (c : Dev nD) (t : Fin cfg0.N) :
    (dat0 V c).flushed 2 t = ((cfg0.win 2).blk t).view.read (Elt Ideal)
      (rowsCols (M := 50000) (K := 128) (N := 128) (feats V c) (weights V c)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := block_indices t
  funext j
  obtain ⟨p, q, rfl⟩ : ∃ (p : Fin 10000) (q : Fin 128), j = ix2 p q := ⟨j 0, j 1, eq_ix2 j⟩
  refine (PointValues.proj1_apply (iblk0 V c 0 t) (iblk0 V c 1 t) p q).trans ?_
  show ∑ k : Fin 128, feats V c (((cfg0.win 0).blk t).view.emb (ix2 p k)) * weights V c (((cfg0.win 1).blk t).view.emb (ix2 k q))
     = ∑ k : Fin 128, feats V c (ix2 (n0 := 50000) ((((cfg0.win 2).blk t).view.emb (ix2 p q)) 0) k)
        * weights V c (ix2 (n1 := 128) k ((((cfg0.win 2).blk t).view.emb (ix2 p q)) 1))
  refine Finset.sum_congr rfl fun k _ => ?_
  have h0 : ((cfg0.win 0).blk t).view.emb (ix2 p k) = ix2 (n0 := 50000) ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ix2 (n1 := 128) k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the result array is in grid point t's block iff each coordinate is in the block's range. -/
theorem mem_block (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v29).slice (win0_2.rect t)).set ↔ _
  rw [View.set_slice_whole, Rect.mem_set_unit]
  exact Iff.rfl

/-- Row r of the result lies in the block of grid point r / 10000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 10000 < 5 := by omega
  obtain ⟨e0, e1, e2, e3, e4, e5⟩ := block_indices ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_block]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    omega

/-- The result array after the region: the product of the arrays the region found. -/
theorem result (c : Dev nD) :
    (dat0 V c).arrAt 2 cfg0.N = rowsCols (M := 50000) (K := 128) (N := 128) (feats V c) (weights V c) :=
  (dat0 V c).arrAt_eq_of_cover 2 _ (fun t _ => written_block V c t) covered

end Cert.KernelIdeal.Region0

end
-- ==== Proof.Region1.lean ====
/- The first bias-and-activation region: after its five row blocks are written back, the result array holds the
   aggregated messages plus the bias row, cut off below at zero.

   Grid point t stages rows 10000·t … 10000·t + 9999 of the aggregated array and the whole bias vector, and writes the
   same rows of the result. Entry (p, q) of what it writes is max (a (10000·t + p, q) + bias q) 0, which is entry
   (10000·t + p, q) of the whole-array function; the five blocks cover all 50000 rows. -/
import proofs.«142947_j38963943309622_1_alg».proof.Proof.Gen.KernelIdeal.Frame
import proofs.«142947_j38963943309622_1_alg».proof.Proof.PointValues
import proofs.«142947_j38963943309622_1_alg».proof.Proof.Products

set_option maxRecDepth 16384

noncomputable section

namespace Cert.KernelIdeal.Region1

open Cert.KernelIdeal Cert.KernelIdeal.Gen Idealize.ShloMosaic Idealize.ShloMosaic.ValueIdx Idealize.ShloMosaic.TcCoe
open Idealize.SL.Sem Cert.Products
open Idealize.ShloMosaic.Pipeline (Dat Cfg Window)

variable (V : (c : Dev nD) → (b : Ref sig .tc) → Buf (Elt Ideal) ((c : Thread nD τ).loc b))

/-- The aggregated messages and the bias vector as the region finds them, at their literal types. -/
abbrev summed (c : Dev nD) : S50000x128.Idx → EReal := V c main_v42
abbrev bias (c : Dev nD) : S128.Idx → EReal := V c main_arg3

theorem origin2 : (![0, 0] : Fin 2 → Nat) = fun _ => 0 := funext fun a => by fin_cases a <;> rfl
theorem origin1 : (![0] : Fin 1 → Nat) = fun _ => 0 := funext fun a => by fin_cases a; rfl

/-- The block index maps over the grid: the input block and the result block are the same rows and all columns,
    the bias vector is one block, and the result's row block index is the grid point. -/
theorem block_indices : ∀ t : Fin cfg1.N, win1_0.index t (0 : Fin 2) = win1_2.index t (0 : Fin 2)
    ∧ win1_0.index t (1 : Fin 2) = win1_2.index t (1 : Fin 2) ∧ win1_1.index t (0 : Fin 1) = 0
    ∧ win1_2.index t (0 : Fin 2) = t.val ∧ win1_2.index t (1 : Fin 2) = 0 :=
  (by decide +kernel : ∀ t : Fin grid1.N, _)

/-- What grid point t writes back is its block of the whole-array function. -/
theorem written_block (c : Dev nD) (t : Fin cfg1.N) :
    (dat1 V c).flushed 2 t = ((cfg1.win 2).blk t).view.read (Elt Ideal)
      (biasRelu (M := 50000) (N := 128) (summed V c) (bias V c)) := by
  show (cfg1.win 2).cut (grid1.coords t) ((dat1 V c).after 2 t) = _
  rw [after1_2]
  unfold out1_2
  rw [View.canon_unit_zero origin2]
  simp only [View.ld_unit_zero (S := S10000x128) origin2, View.ld_unit_zero (S := S128) origin1]
  obtain ⟨e0, e1, e2, e3, e4⟩ := block_indices t
  funext j
  obtain ⟨p, q, rfl⟩ : ∃ (p : Fin 10000) (q : Fin 128), j = ix2 p q := ⟨j 0, j 1, eq_ix2 j⟩
  refine (PointValues.act1_apply (iblk1 V c 0 t) (iblk1 V c 1 t) p q).trans ?_
  show max (summed V c (((cfg1.win 0).blk t).view.emb (ix2 p q)) + bias V c (((cfg1.win 1).blk t).view.emb (ix1 q))) zeroF
     = max (summed V c (((cfg1.win 2).blk t).view.emb (ix2 p q))
        + bias V c (ix1 (n := 128) ((((cfg1.win 2).blk t).view.emb (ix2 p q)) 1))) zeroF
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix1 q) = ix1 (n := 128) ((((cfg1.win 2).blk t).view.emb (ix2 p q)) 1) := by
    funext a; apply Fin.ext
    match a with
    | ⟨0, _⟩ => show win1_1.index t (0 : Fin 1) * 128 + 1 * q.val = win1_2.index t (1 : Fin 2) * 128 + 1 * q.val; omega
  rw [h0, h1]

/-- An index of the result array is in grid point t's block iff each coordinate is in the block's range. -/
theorem mem_block (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v43).slice (win1_2.rect t)).set ↔ _
  rw [View.set_slice_whole, Rect.mem_set_unit]
  exact Iff.rfl

/-- Row r of the result lies in the block of grid point r / 10000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 10000 < 5 := by omega
  obtain ⟨e0, e1, e2, e3, e4⟩ := block_indices ⟨(i 0).val / 10000, ht⟩
  have e3' : win1_2.index ⟨(i 0).val / 10000, ht⟩ (0 : Fin 2) = (i 0).val / 10000 := e3
  refine ⟨⟨(i 0).val / 10000, ht⟩, flush1_2 _, ?_⟩
  rw [mem_block]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    omega
  | ⟨1, _⟩ =>
    show win1_2.index ⟨(i 0).val / 10000, ht⟩ (1 : Fin 2) * 128 ≤ (i 1).val
      ∧ (i 1).val < win1_2.index ⟨(i 0).val / 10000, ht⟩ (1 : Fin 2) * 128 + 128
    omega

/-- The result array after the region: the bias and activation applied to the array the region found. -/
theorem result (c : Dev nD) :
    (dat1 V c).arrAt 2 cfg1.N = biasRelu (M := 50000) (N := 128) (summed V c) (bias V c) :=
  (dat1 V c).arrAt_eq_of_cover 2 _ (fun t _ => written_block V c t) covered

end Cert.KernelIdeal.Region1

end
-- ==== Proof.Region5.lean ====
/- The last bias region: after its five row blocks are written back, the result array holds the aggregated
   messages of the 40 classes plus the bias row.

   Grid point t stages rows 10000·t … 10000·t + 9999 of the aggregated array and the whole bias vector, and writes the
   same rows of the result. Entry (p, q) of what it writes is a (10000·t + p, q) + bias q; there is no activation after
   the last layer. The five blocks cover all 50000 rows. -/
import proofs.«142947_j38963943309622_1_alg».proof.Proof.Gen.KernelIdeal.Frame
import proofs.«142947_j38963943309622_1_alg».proof.Proof.PointValues
import proofs.«142947_j38963943309622_1_alg».proof.Proof.Products

set_option maxRecDepth 16384

noncomputable section

namespace Cert.KernelIdeal.Region5

open Cert.KernelIdeal Cert.KernelIdeal.Gen Idealize.ShloMosaic Idealize.ShloMosaic.ValueIdx Idealize.ShloMosaic.TcCoe
open Idealize.SL.Sem Cert.Products
open Idealize.ShloMosaic.Pipeline (Dat Cfg Window)

variable (V : (c : Dev nD) → (b : Ref sig .tc) → Buf (Elt Ideal) ((c : Thread nD τ).loc b))

/-- The aggregated class scores and the last bias vector as the region finds them, at their literal types. -/
abbrev scores (c : Dev nD) : S50000x40.Idx → EReal := V c main_v72
abbrev lastBias (c : Dev nD) : S40.Idx → EReal := V c main_arg7

theorem origin2 : (![0, 0] : Fin 2 → Nat) = fun _ => 0 := funext fun a => by fin_cases a <;> rfl
theorem origin1 : (![0] : Fin 1 → Nat) = fun _ => 0 := funext fun a => by fin_cases a; rfl

/-- The block index maps over the grid: input and result blocks are the same rows and all 40 columns, the bias is
    one block, and the result's row block index is the grid point. -/
theorem block_indices : ∀ t : Fin cfg5.N, win5_0.index t (0 : Fin 2) = win5_2.index t (0 : Fin 2)
    ∧ win5_0.index t (1 : Fin 2) = win5_2.index t (1 : Fin 2) ∧ win5_1.index t (0 : Fin 1) = 0
    ∧ win5_2.index t (0 : Fin 2) = t.val ∧ win5_2.index t (1 : Fin 2) = 0 :=
  (by decide +kernel : ∀ t : Fin grid5.N, _)

/-- What grid point t writes back is its block of the scores with the bias row added. -/
theorem written_block (c : Dev nD) (t : Fin cfg5.N) :
    (dat5 V c).flushed 2 t = ((cfg5.win 2).blk t).view.read (Elt Ideal)
      (biasAdd (M := 50000) (N := 40) (scores V c) (lastBias V c)) := by
  show (cfg5.win 2).cut (grid5.coords t) ((dat5 V c).after 2 t) = _
  rw [after5_2]
  unfold out5_2
  rw [View.canon_unit_zero origin2]
  simp only [View.ld_unit_zero (S := S10000x40) origin2, View.ld_unit_zero (S := S40) origin1]
  obtain ⟨e0, e1, e2, e3, e4⟩ := block_indices t
  funext j
  obtain ⟨p, q, rfl⟩ : ∃ (p : Fin 10000) (q : Fin 40), j = ix2 p q := ⟨j 0, j 1, eq_ix2 j⟩
  refine (PointValues.bias3_apply (iblk5 V c 0 t) (iblk5 V c 1 t) p q).trans ?_
  show scores V c (((cfg5.win 0).blk t).view.emb (ix2 p q)) + lastBias V c (((cfg5.win 1).blk t).view.emb (ix1 q))
     = scores V c (((cfg5.win 2).blk t).view.emb (ix2 p q))
        + lastBias V c (ix1 (n := 40) ((((cfg5.win 2).blk t).view.emb (ix2 p q)) 1))
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 40 + 1 * q.val = win5_2.index t (1 : Fin 2) * 40 + 1 * q.val; omega
  have h1 : ((cfg5.win 1).blk t).view.emb (ix1 q) = ix1 (n := 40) ((((cfg5.win 2).blk t).view.emb (ix2 p q)) 1) := by
    funext a; apply Fin.ext
    match a with
    | ⟨0, _⟩ => show win5_1.index t (0 : Fin 1) * 40 + 1 * q.val = win5_2.index t (1 : Fin 2) * 40 + 1 * q.val; omega
  rw [h0, h1]

/-- An index of the result array is in grid point t's block iff each coordinate is in the block's range. -/
theorem mem_block (t : Fin cfg5.N) (i : S50000x40.Idx) :
    i ∈ ((cfg5.win 2).blk t).view.set ↔ ∀ a : Fin 2, win5_2.index t a * S10000x40.size a ≤ (i a).val
      ∧ (i a).val < win5_2.index t a * S10000x40.size a + S10000x40.size a := by
  show i ∈ ((View.whole main_v73).slice (win5_2.rect t)).set ↔ _
  rw [View.set_slice_whole, Rect.mem_set_unit]
  exact Iff.rfl

/-- Row r of the result lies in the block of grid point r / 10000. -/
theorem covered (i : S50000x40.Idx) :
    ∃ t : Fin cfg5.N, (cfg5.win 2).flush t = true ∧ i ∈ ((cfg5.win 2).blk t).view.set := by
  have hi0 : (i 0).val < 50000 := (i 0).isLt
  have hi1 : (i 1).val < 40 := (i 1).isLt
  have ht : (i 0).val / 10000 < 5 := by omega
  obtain ⟨e0, e1, e2, e3, e4⟩ := block_indices ⟨(i 0).val / 10000, ht⟩
  have e3' : win5_2.index ⟨(i 0).val / 10000, ht⟩ (0 : Fin 2) = (i 0).val / 10000 := e3
  refine ⟨⟨(i 0).val / 10000, ht⟩, flush5_2 _, ?_⟩
  rw [mem_block]
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    omega
  | ⟨1, _⟩ =>
    show win5_2.index ⟨(i 0).val / 10000, ht⟩ (1 : Fin 2) * 40 ≤ (i 1).val
      ∧ (i 1).val < win5_2.index ⟨(i 0).val / 10000, ht⟩ (1 : Fin 2) * 40 + 40
    omega

/-- The result array after the region: the scores the region found with the bias row added. -/
theorem result (c : Dev nD) :
    (dat5 V c).arrAt 2 cfg5.N = biasAdd (M := 50000) (N := 40) (scores V c) (lastBias V c) :=
  (dat5 V c).arrAt_eq_of_cover 2 _ (fun t _ => written_block V c t) covered

end Cert.KernelIdeal.Region5

end
-- ==== Proof.Network.lean ====
/- The three-layer network as one function of its eight arguments, layer by layer.

   Each layer projects the node features by its weight matrix, passes the messages along the edges (the shared host
   computation), and adds the bias row; the two hidden layers then take the maximum with zero. -/
import proofs.«142947_j38963943309622_1_alg».proof.Proof.HostChain
import proofs.«142947_j38963943309622_1_alg».proof.Proof.Products

noncomputable section

namespace Cert.KernelIdeal.Network

open Cert.KernelIdeal Idealize.ShloMosaic Cert.Products Cert.KernelIdeal.HostChain

/-- A hidden layer: project, pass the messages, add the bias row, cut off below at zero. -/
def hiddenLayer (z : S50000x128.Idx → EReal) (e : (⟨S2x800000, .i32⟩ : BufTy).Contents (Elt Ideal))
    (w : S128x128.Idx → EReal) (b : S128.Idx → EReal) : S50000x128.Idx → EReal :=
  biasRelu (M := 50000) (N := 128)
    (passMessages128 (F := Ideal) (rowsCols (M := 50000) (K := 128) (N := 128) z w) (sources e) (targets e) (weights e)) b

/-- The output layer: project to the 40 classes, pass the messages, add the bias row. -/
def outputLayer (z : S50000x128.Idx → EReal) (e : (⟨S2x800000, .i32⟩ : BufTy).Contents (Elt Ideal))
    (w : S128x40.Idx → EReal) (b : S40.Idx → EReal) : S50000x40.Idx → EReal :=
  biasAdd (M := 50000) (N := 40)
    (passMessages40 (F := Ideal) (rowsCols (M := 50000) (K := 128) (N := 40) z w) (sources e) (targets e) (weights e)) b

/-- The network's result from the features, the edge list, and the three layers' weights and biases. -/
def network (x : S50000x128.Idx → EReal) (e : (⟨S2x800000, .i32⟩ : BufTy).Contents (Elt Ideal))
    (w1 : S128x128.Idx → EReal) (b1 : S128.Idx → EReal) (w2 : S128x128.Idx → EReal) (b2 : S128.Idx → EReal)
    (w3 : S128x40.Idx → EReal) (b3 : S40.Idx → EReal) : S50000x40.Idx → EReal :=
  outputLayer (hiddenLayer (hiddenLayer x e w1 b1) e w2 b2) e w3 b3

end Cert.KernelIdeal.Network

end
-- ==== Proof.KernelFold.lean ====
/- The kernel's program computes the network: the fold through its six regions and four host stretches, read back.

   Each boundary's contents are those before it with one stretch's or one region's results written. The message
   sources, targets and weights are computed once, after the first stretch, and nothing writes them again; no stretch
   and no region writes an argument. So the first region's result is the product of the features with the first
   weights, the second stretch passes the messages over it, the second region adds the first bias and cuts off at zero:
   the first hidden layer. The next two regions and a stretch are the second hidden layer over that, and the last two
   regions and a stretch the output layer. -/
import proofs.«142947_j38963943309622_1_alg».proof.Proof.FoldReads
import proofs.«142947_j38963943309622_1_alg».proof.Proof.Region0
import proofs.«142947_j38963943309622_1_alg».proof.Proof.Region1
import proofs.«142947_j38963943309622_1_alg».proof.Proof.Region2
import proofs.«142947_j38963943309622_1_alg».proof.Proof.Region3
import proofs.«142947_j38963943309622_1_alg».proof.Proof.Region4
import proofs.«142947_j38963943309622_1_alg».proof.Proof.Region5
import proofs.«142947_j38963943309622_1_alg».proof.Proof.Network

set_option maxRecDepth 16384

noncomputable section

namespace Cert.KernelIdeal.KernelFold

open Cert.KernelIdeal Cert.KernelIdeal.Gen Idealize.ShloMosaic Idealize.ShloMosaic.TcCoe Idealize.SL.Sem
open Cert.Products Cert.KernelIdeal.HostChain Cert.KernelIdeal.Network Cert.KernelIdeal.FoldReads

variable (m : (ℓ : Loc nD τ sig) → Buf (Elt Ideal) ℓ) (ρ : Dev nD → PrngReg) (c : Dev nD)

/-! ## The launch arguments, at their literal types -/

abbrev argX : S50000x128.Idx → EReal := m ((c : Thread nD τ).loc main_arg0)
abbrev argE : (⟨S2x800000, .i32⟩ : BufTy).Contents (Elt Ideal) := m ((c : Thread nD τ).loc main_arg1)
abbrev argW1 : S128x128.Idx → EReal := m ((c : Thread nD τ).loc main_arg2)
abbrev argB1 : S128.Idx → EReal := m ((c : Thread nD τ).loc main_arg3)
abbrev argW2 : S128x128.Idx → EReal := m ((c : Thread nD τ).loc main_arg4)
abbrev argB2 : S128.Idx → EReal := m ((c : Thread nD τ).loc main_arg5)
abbrev argW3 : S128x40.Idx → EReal := m ((c : Thread nD τ).loc main_arg6)
abbrev argB3 : S40.Idx → EReal := m ((c : Thread nD τ).loc main_arg7)

/-! ## The message sources, targets and weights stay what the first stretch computed -/

theorem sources_W2 : W2 m ρ c (Proc.devRef .tc main_v5) = sources (argE m c) :=
  (W2_of_ne m ρ c main_v5 (by decide)).trans (sources_read m ρ c)
theorem targets_W2 : W2 m ρ c (Proc.devRef .tc main_v6) = targets (argE m c) :=
  (W2_of_ne m ρ c main_v6 (by decide)).trans (targets_read m ρ c)
theorem weights_W2 : W2 m ρ c (Proc.devRef .tc main_v28) = weights (argE m c) :=
  (W2_of_ne m ρ c main_v28 (by decide)).trans (weights_read m ρ c)

theorem sources_W5 : W5 m ρ c (Proc.devRef .tc main_v5) = sources (argE m c) :=
  (W5_of_ne m ρ c main_v5 (by decide)).trans ((W4_of_ne m ρ c main_v5 (by decide)).trans
    ((second_keeps_sources m ρ c).trans (sources_W2 m ρ c)))
theorem targets_W5 : W5 m ρ c (Proc.devRef .tc main_v6) = targets (argE m c) :=
  (W5_of_ne m ρ c main_v6 (by decide)).trans ((W4_of_ne m ρ c main_v6 (by decide)).trans
    ((second_keeps_targets m ρ c).trans (targets_W2 m ρ c)))
theorem weights_W5 : W5 m ρ c (Proc.devRef .tc main_v28) = weights (argE m c) :=
  (W5_of_ne m ρ c main_v28 (by decide)).trans ((W4_of_ne m ρ c main_v28 (by decide)).trans
    ((second_keeps_weights m ρ c).trans (weights_W2 m ρ c)))

theorem sources_W8 : W8 m ρ c (Proc.devRef .tc main_v5) = sources (argE m c) :=
  (W8_of_ne m ρ c main_v5 (by decide)).trans ((W7_of_ne m ρ c main_v5 (by decide)).trans
    ((third_keeps_sources m ρ c).trans (sources_W5 m ρ c)))
theorem targets_W8 : W8 m ρ c (Proc.devRef .tc main_v6) = targets (argE m c) :=
  (W8_of_ne m ρ c main_v6 (by decide)).trans ((W7_of_ne m ρ c main_v6 (by decide)).trans
    ((third_keeps_targets m ρ c).trans (targets_W5 m ρ c)))
theorem weights_W8 : W8 m ρ c (Proc.devRef .tc main_v28) = weights (argE m c) :=
  (W8_of_ne m ρ c main_v28 (by decide)).trans ((W7_of_ne m ρ c main_v28 (by decide)).trans
    ((third_keeps_weights m ρ c).trans (weights_W5 m ρ c)))

/-! ## The arguments where the regions read them -/

theorem feats_W1 : W1 m ρ c (Proc.devRef .tc main_arg0) = argX m c := first_keeps_arg0 m ρ c
theorem weights1_W1 : W1 m ρ c (Proc.devRef .tc main_arg2) = argW1 m c := first_keeps_arg2 m ρ c
theorem bias1_W3 : W3 m ρ c (Proc.devRef .tc main_arg3) = argB1 m c :=
  (second_keeps_arg3 m ρ c).trans ((W2_of_ne m ρ c main_arg3 (by decide)).trans (first_keeps_arg3 m ρ c))
theorem weights2_W4 : W4 m ρ c (Proc.devRef .tc main_arg4) = argW2 m c :=
  (W4_of_ne m ρ c main_arg4 (by decide)).trans ((second_keeps_arg4 m ρ c).trans
    ((W2_of_ne m ρ c main_arg4 (by decide)).trans (first_keeps_arg4 m ρ c)))
/-- From the end backwards: the last boundary holds the argument as launched, and nothing between wrote it. -/
theorem bias2_W6 : W6 m ρ c (Proc.devRef .tc main_arg5) = argB2 m c :=
  ((W10_of_ne m ρ c main_arg5 (by decide)).trans ((fourth_keeps_arg5 m ρ c).trans
    ((W8_of_ne m ρ c main_arg5 (by decide)).trans ((W7_arr m ρ c 1).trans
      (((dat3 (V6 m ρ) c).arrAt_in 1 rfl _).trans (A_eq3 (V6 m ρ) c 1)))))).symm.trans (W10_main_arg5 m ρ c)
theorem weights3_W7 : W7 m ρ c (Proc.devRef .tc main_arg6) = argW3 m c :=
  ((W10_of_ne m ρ c main_arg6 (by decide)).trans ((fourth_keeps_arg6 m ρ c).trans
    ((W8_arr m ρ c 1).trans (((dat4 (V7 m ρ) c).arrAt_in 1 rfl _).trans (A_eq4 (V7 m ρ) c 1))))).symm.trans
    (W10_main_arg6 m ρ c)
theorem bias3_W9 : W9 m ρ c (Proc.devRef .tc main_arg7) = argB3 m c :=
  ((W10_arr m ρ c 1).trans (((dat5 (V9 m ρ) c).arrAt_in 1 rfl _).trans (A_eq5 (V9 m ρ) c 1))).symm.trans
    (W10_main_arg7 m ρ c)

/-! ## The three layers -/

/-- After the second region: the first hidden layer of the launch arguments. -/
theorem layer1 : W4 m ρ c (Proc.devRef .tc main_v43) = hiddenLayer (argX m c) (argE m c) (argW1 m c) (argB1 m c) := by
  have h : W2 m ρ c (Proc.devRef .tc main_v29) = rowsCols (M := 50000) (K := 128) (N := 128) (argX m c) (argW1 m c) := by
    refine ((W2_arr m ρ c 2).trans (Region0.result (V1 m ρ) c)).trans ?_
    rw [show Region0.feats (V1 m ρ) c = argX m c from feats_W1 m ρ c,
      show Region0.weights (V1 m ρ) c = argW1 m c from weights1_W1 m ρ c]
  have a : W3 m ρ c (Proc.devRef .tc main_v42)
      = passMessages128 (F := Ideal) (rowsCols (M := 50000) (K := 128) (N := 128) (argX m c) (argW1 m c))
          (sources (argE m c)) (targets (argE m c)) (weights (argE m c)) := by
    rw [round1_read m ρ c, h, sources_W2 m ρ c, targets_W2 m ρ c, weights_W2 m ρ c]
  refine ((W4_arr m ρ c 2).trans (Region1.result (V3 m ρ) c)).trans ?_
  rw [show Region1.summed (V3 m ρ) c = _ from a, show Region1.bias (V3 m ρ) c = argB1 m c from bias1_W3 m ρ c]
  rfl

/-- After the fourth region: the second hidden layer over the first. -/
theorem layer2 : W7 m ρ c (Proc.devRef .tc main_v58)
    = hiddenLayer (W4 m ρ c (Proc.devRef .tc main_v43)) (argE m c) (argW2 m c) (argB2 m c) := by
  have h : W5 m ρ c (Proc.devRef .tc main_v44)
      = rowsCols (M := 50000) (K := 128) (N := 128) (W4 m ρ c (Proc.devRef .tc main_v43)) (argW2 m c) := by
    refine ((W5_arr m ρ c 2).trans (Region2.result (V4 m ρ) c)).trans ?_
    rw [show Region2.weights (V4 m ρ) c = argW2 m c from weights2_W4 m ρ c]
  have a : W6 m ρ c (Proc.devRef .tc main_v57)
      = passMessages128 (F := Ideal) (rowsCols (M := 50000) (K := 128) (N := 128) (W4 m ρ c (Proc.devRef .tc main_v43)) (argW2 m c))
          (sources (argE m c)) (targets (argE m c)) (weights (argE m c)) := by
    rw [round2_read m ρ c, h, sources_W5 m ρ c, targets_W5 m ρ c, weights_W5 m ρ c]
  refine ((W7_arr m ρ c 2).trans (Region3.result (V6 m ρ) c)).trans ?_
  rw [show Region3.summed (V6 m ρ) c = _ from a, show Region3.bias (V6 m ρ) c = argB2 m c from bias2_W6 m ρ c]
  rfl

/-- After the last region: the output layer over the second hidden layer. -/
theorem layer3 : W10 m ρ c (Proc.devRef .tc main_v73)
    = outputLayer (W7 m ρ c (Proc.devRef .tc main_v58)) (argE m c) (argW3 m c) (argB3 m c) := by
  have h : W8 m ρ c (Proc.devRef .tc main_v59)
      = rowsCols (M := 50000) (K := 128) (N := 40) (W7 m ρ c (Proc.devRef .tc main_v58)) (argW3 m c) := by
    refine ((W8_arr m ρ c 2).trans (Region4.result (V7 m ρ) c)).trans ?_
    rw [show Region4.weights (V7 m ρ) c = argW3 m c from weights3_W7 m ρ c]
  have a : W9 m ρ c (Proc.devRef .tc main_v72)
      = passMessages40 (F := Ideal) (rowsCols (M := 50000) (K := 128) (N := 40) (W7 m ρ c (Proc.devRef .tc main_v58)) (argW3 m c))
          (sources (argE m c)) (targets (argE m c)) (weights (argE m c)) := by
    rw [round3_read m ρ c, h, sources_W8 m ρ c, targets_W8 m ρ c, weights_W8 m ρ c]
  refine ((W10_arr m ρ c 2).trans (Region5.result (V9 m ρ) c)).trans ?_
  rw [show Region5.scores (V9 m ρ) c = _ from a, show Region5.lastBias (V9 m ρ) c = argB3 m c from bias3_W9 m ρ c]
  rfl

/-- The result array after the run: the network of the launch arguments. -/
theorem result : W10 m ρ c (Proc.devRef .tc main_v73)
    = network (argX m c) (argE m c) (argW1 m c) (argB1 m c) (argW2 m c) (argB2 m c) (argW3 m c) (argB3 m c) := by
  rw [layer3 m ρ c, layer2 m ρ c, layer1 m ρ c]
  rfl

end Cert.KernelIdeal.KernelFold

end
-- ==== Proof.RefLayers.lean ====
/- The reference program's stages are the network's layers.

   Read one operation at a time, the reference computes from the edge list the message sources, targets and weights
   by the very operations the kernel's program runs on the host, and each layer as the host's matrix product, one
   round of message passing, the bias row broadcast and added, and for the hidden layers the maximum with zero. Over
   the extended reals the host's matrix product is the rows-times-columns sum, so each stage is the corresponding layer
   function of the stage before it. -/
import proofs.«142947_j38963943309622_1_alg».proof.Proof.Gen.ReferenceIdeal.Read
import proofs.«142947_j38963943309622_1_alg».proof.Proof.Network

set_option maxRecDepth 16384

noncomputable section

namespace Cert.ReferenceIdeal.Layers

open Cert.ReferenceIdeal Cert.ReferenceIdeal.Read Idealize.ShloMosaic Idealize.ShloMosaic.ValueIdx Cert.Products
open Cert.KernelIdeal.HostChain Cert.KernelIdeal.Network

/-! ## The shared host computations, at any instance -/

section AnyInstance
variable {F : FTy → Type} [FloatOps F]

theorem sources_stage (e : (⟨S2x800000, .i32⟩ : BufTy).Contents (Elt F)) : val_main_v5 (F := F) e = sources e := by
  unfold val_main_v5 val_main_v4 val_main_v1 val_main_v0 sources
  rfl

theorem targets_stage (e : (⟨S2x800000, .i32⟩ : BufTy).Contents (Elt F)) : val_main_v6 (F := F) e = targets e := by
  unfold val_main_v6 val_main_v4 val_main_v3 val_main_v2 targets
  rfl

/-- Every node's inverse square root degree. -/
theorem invSqrtDegree_stage (e : (⟨S2x800000, .i32⟩ : BufTy).Contents (Elt F)) :
    val_main_v13 (F := F) e = invSqrtDegree e := by
  unfold invSqrtDegree
  rw [← targets_stage e]
  unfold val_main_v13 val_main_v12 val_main_v11 val_main_cst_1 val_main_v10 val_main_v9 val_main_v8 val_main_cst_0
    val_main_v7 val_main_cst
  rfl

/-- The message weights. -/
theorem weights_stage (e : (⟨S2x800000, .i32⟩ : BufTy).Contents (Elt F)) : val_main_v28 (F := F) e = weights e := by
  unfold weights wrapped
  rw [← invSqrtDegree_stage e, ← sources_stage e, ← targets_stage e]
  unfold val_main_v28 val_main_v27 val_main_v26 val_main_v25 val_main_v24 val_main_v23 val_main_c_4 val_main_v22
    val_main_v21 val_main_c_3 val_main_v20 val_main_v19 val_main_v18 val_main_v17 val_main_v16 val_main_c_2
    val_main_v15 val_main_v14 val_main_c
  rfl

/-- The first round of message passing. -/
theorem round1_stage (x0 : (⟨S50000x128, .f32⟩ : BufTy).Contents (Elt F)) (e : (⟨S2x800000, .i32⟩ : BufTy).Contents (Elt F))
    (x2 : (⟨S128x128, .f32⟩ : BufTy).Contents (Elt F)) :
    val_main_v42 (F := F) x0 e x2 = passMessages128 (val_main_v29 (F := F) x0 x2) (sources e) (targets e) (weights e) := by
  unfold passMessages128 wrapped
  rw [← sources_stage e, ← targets_stage e, ← weights_stage e]
  unfold val_main_v42 val_main_v41 val_main_v40 val_main_cst_7 val_main_v39 val_main_v38 val_main_v37 val_main_v36
    val_main_v35 val_main_v34 val_main_v33 val_main_v32 val_main_c_6 val_main_v31 val_main_v30 val_main_c_5
  rfl

/-- The second round. -/
theorem round2_stage (x0 : (⟨S50000x128, .f32⟩ : BufTy).Contents (Elt F)) (e : (⟨S2x800000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v60 (F := F) x0 e x2 x3 x4
      = passMessages128 (val_main_v47 (F := F) x0 e x2 x3 x4) (sources e) (targets e) (weights e) := by
  unfold passMessages128 wrapped
  rw [← sources_stage e, ← targets_stage e, ← weights_stage e]
  unfold val_main_v60 val_main_v59 val_main_v58 val_main_cst_10 val_main_v57 val_main_v56 val_main_v55 val_main_v54
    val_main_v53 val_main_v52 val_main_v51 val_main_v50 val_main_c_9 val_main_v49 val_main_v48 val_main_c_8
  rfl

/-- The third round, over the 40 classes. -/
theorem round3_stage (x0 : (⟨S50000x128, .f32⟩ : BufTy).Contents (Elt F)) (e : (⟨S2x800000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F))
    (x6 : (⟨S128x40, .f32⟩ : BufTy).Contents (Elt F)) :
    val_main_v78 (F := F) x0 e x2 x3 x4 x5 x6
      = passMessages40 (val_main_v65 (F := F) x0 e x2 x3 x4 x5 x6) (sources e) (targets e) (weights e) := by
  unfold passMessages40 wrapped
  rw [← sources_stage e, ← targets_stage e, ← weights_stage e]
  unfold val_main_v78 val_main_v77 val_main_v76 val_main_cst_13 val_main_v75 val_main_v74 val_main_v73 val_main_v72
    val_main_v71 val_main_v70 val_main_v69 val_main_v68 val_main_c_12 val_main_v67 val_main_v66 val_main_c_11
  rfl

end AnyInstance

/-! ## The dense pieces, over the extended reals -/

/-- The bias row's index under the two broadcasts is the column. -/
theorem bias_index128 (p : Fin 50000) (q : Fin 128) : idx_main_v43 (idx_main_v44 (ix2 p q)) = ix1 q :=
  funext fun a => Fin.ext (by match a with | ⟨0, _⟩ => rfl)
theorem bias_index128' (p : Fin 50000) (q : Fin 128) : idx_main_v61 (idx_main_v62 (ix2 p q)) = ix1 q :=
  funext fun a => Fin.ext (by match a with | ⟨0, _⟩ => rfl)
theorem bias_index40 (p : Fin 50000) (q : Fin 40) : idx_main_v79 (idx_main_v80 (ix2 p q)) = ix1 q :=
  funext fun a => Fin.ext (by match a with | ⟨0, _⟩ => rfl)

/-- The three projections: the host's matrix product is the rows-times-columns sum. -/
theorem proj1_stage (x0 : (⟨S50000x128, .f32⟩ : BufTy).Contents (Elt Ideal)) (x2 : (⟨S128x128, .f32⟩ : BufTy).Contents (Elt Ideal)) :
    val_main_v29 (F := Ideal) x0 x2 = rowsCols (M := 50000) (K := 128) (N := 128) x0 x2 :=
  dotGeneral_eq_rowsCols dot_S50000x128_S128x128_S50000x128_1_0_0_1_n_n rfl rfl rfl rfl rfl rfl none .single x0 x2

theorem proj2_stage (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v47 (F := Ideal) x0 e x2 x3 x4
      = rowsCols (M := 50000) (K := 128) (N := 128) (val_main_v46 (F := Ideal) x0 e x2 x3) x4 :=
  dotGeneral_eq_rowsCols dot_S50000x128_S128x128_S50000x128_1_0_0_1_n_n rfl rfl rfl rfl rfl rfl none .single _ x4

theorem proj3_stage (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x40, .f32⟩ : BufTy).Contents (Elt Ideal)) :
    val_main_v65 (F := Ideal) x0 e x2 x3 x4 x5 x6
      = rowsCols (M := 50000) (K := 128) (N := 40) (val_main_v64 (F := Ideal) x0 e x2 x3 x4 x5) x6 :=
  dotGeneral_eq_rowsCols dot_S50000x128_S128x40_S50000x40_1_0_0_1_n_n rfl rfl rfl rfl rfl rfl none .single _ x6

/-- The first layer. -/
theorem layer1_stage (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) :
    val_main_v46 (F := Ideal) x0 e x2 x3 = hiddenLayer x0 e x2 x3 := by
  unfold hiddenLayer
  rw [← proj1_stage x0 x2, ← round1_stage x0 e x2]
  funext i
  obtain ⟨p, q, rfl⟩ : ∃ (p : Fin 50000) (q : Fin 128), i = ix2 p q := ⟨i 0, i 1, eq_ix2 i⟩
  rw [val_main_v46_apply, val_main_v45_apply, val_main_v44_apply, val_main_v43_apply, val_main_call0_v0_apply,
    val_main_call0_cst_apply, bias_index128]
  rfl

/-- The second layer, over the first. -/
theorem layer2_stage (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v64 (F := Ideal) x0 e x2 x3 x4 x5 = hiddenLayer (val_main_v46 (F := Ideal) x0 e x2 x3) e x4 x5 := by
  unfold hiddenLayer
  rw [← proj2_stage x0 e x2 x3 x4, ← round2_stage x0 e x2 x3 x4]
  funext i
  obtain ⟨p, q, rfl⟩ : ∃ (p : Fin 50000) (q : Fin 128), i = ix2 p q := ⟨i 0, i 1, eq_ix2 i⟩
  rw [val_main_v64_apply, val_main_v63_apply, val_main_v62_apply, val_main_v61_apply, val_main_call1_v0_apply,
    val_main_call1_cst_apply, bias_index128']
  rfl

/-- The output layer, over the second. -/
theorem layer3_stage (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x40, .f32⟩ : BufTy).Contents (Elt Ideal)) (x7 : (⟨S40, .f32⟩ : BufTy).Contents (Elt Ideal)) :
    val_main_v81 (F := Ideal) x0 e x2 x3 x4 x5 x6 x7
      = outputLayer (val_main_v64 (F := Ideal) x0 e x2 x3 x4 x5) e x6 x7 := by
  unfold outputLayer
  rw [← proj3_stage x0 e x2 x3 x4 x5 x6, ← round3_stage x0 e x2 x3 x4 x5 x6]
  funext i
  obtain ⟨p, q, rfl⟩ : ∃ (p : Fin 50000) (q : Fin 40), i = ix2 p q := ⟨i 0, i 1, eq_ix2 i⟩
  rw [val_main_v81_apply, val_main_v80_apply, val_main_v79_apply, bias_index40]
  rfl

/-- The reference's result is the network of its arguments. -/
theorem network_stage (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x40, .f32⟩ : BufTy).Contents (Elt Ideal)) (x7 : (⟨S40, .f32⟩ : BufTy).Contents (Elt Ideal)) :
    val_main_v81 (F := Ideal) x0 e x2 x3 x4 x5 x6 x7 = network x0 e x2 x3 x4 x5 x6 x7 := by
  rw [layer3_stage, layer2_stage, layer1_stage]
  rfl

end Cert.ReferenceIdeal.Layers

end
-- ==== Proof.lean ====
/- A three-layer graph convolution network: the kernel's program and its jnp reference compute the same function.

   Both programs read the node features x (50000 × 128), the edge list (2 × 800000 node numbers) and three layers'
   weights and biases. From the edge list both compute, by the same host operations, every message's source and
   target node (the edges, then one self loop per node) and its weight: the inverse square roots of the degrees of
   its two end nodes multiplied. A layer projects the node features by its weight matrix, gives every message its
   source node's projected row times its weight, sums the messages into their target nodes' rows, and adds the bias
   row; the two hidden layers then take the maximum with zero.

   The programs differ only in the dense pieces. The kernel's program projects in a Pallas region over five blocks
   of 10000 rows, each the block times the whole weight matrix with both narrowed to bf16 and accumulated from
   zero, where the reference has one host matrix product; and it adds the bias and takes the maximum in a second
   region over the same blocks, where the reference broadcasts the bias, adds, and calls relu. Over the extended
   reals narrowing is the identity, the product into a zero accumulator and the host's product are the same sum over
   the contracted coordinate, five row blocks tile the 50000 rows, and the bias added blockwise is the bias added to
   the whole array. So both results are one function, `network`, of the eight arguments; no law beyond that is used, and
   the precondition (finite inputs) is not needed.

   The three frames are the generated ones (the reference's is its generated run with the result dropped); the
   idealization rewrote nothing, so the preservation claim is trivial. -/
import proofs.«142947_j38963943309622_1_alg».proof.Defs
import proofs.«142947_j38963943309622_1_alg».proof.Proof.Gen.Kernel
import proofs.«142947_j38963943309622_1_alg».proof.Proof.Gen.Kernel.Skeleton
import proofs.«142947_j38963943309622_1_alg».proof.Proof.Gen.Kernel.Launch
import proofs.«142947_j38963943309622_1_alg».proof.Proof.Gen.Kernel.Points
import proofs.«142947_j38963943309622_1_alg».proof.Proof.Gen.Kernel.Frame
import proofs.«142947_j38963943309622_1_alg».proof.Proof.Gen.KernelIdeal
import proofs.«142947_j38963943309622_1_alg».proof.Proof.Gen.KernelIdeal.Skeleton
import proofs.«142947_j38963943309622_1_alg».proof.Proof.Gen.KernelIdeal.Launch
import proofs.«142947_j38963943309622_1_alg».proof.Proof.Gen.KernelIdeal.Points
import proofs.«142947_j38963943309622_1_alg».proof.Proof.Gen.KernelIdeal.Frame
import proofs.«142947_j38963943309622_1_alg».proof.Proof.Gen.ReferenceIdeal
import proofs.«142947_j38963943309622_1_alg».proof.Proof.Gen.ReferenceIdeal.Run
import proofs.«142947_j38963943309622_1_alg».proof.Proof.Gen.Pre_finite_inputs
import proofs.«142947_j38963943309622_1_alg».proof.Proof.KernelRun
import proofs.«142947_j38963943309622_1_alg».proof.Proof.KernelFold
import proofs.«142947_j38963943309622_1_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of their arguments in the result array, and the arguments agree. -/
theorem algebraic : Cert.algebraic_KernelIdeal_ReferenceIdeal := by
  intro m ρ m' ρ' _ hagree
  refine ⟨fun c => Cert.KernelIdeal.Gen.W10 m ρ c (Proc.devRef .tc Cert.KernelIdeal.main_v73),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  show Cert.ReferenceIdeal.Value.res_main_v81 m' c
    = Cert.KernelIdeal.Gen.W10 m ρ c (Proc.devRef .tc Cert.KernelIdeal.main_v73)
  rw [Cert.ReferenceIdeal.Read.val_main_v81_eq, Cert.ReferenceIdeal.Layers.network_stage,
    Cert.KernelIdeal.KernelFold.result m ρ c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
